-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S16x4096 .f32) (main_arg3 : FVec F S4096x16 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S8192x4096 : Shape := ⟨2, ![8192, 4096]⟩
abbrev S_ : Shape := ⟨0, ![]⟩
abbrev S128x4096 : Shape := ⟨2, ![128, 4096]⟩
abbrev S4096x128 : Shape := ⟨2, ![4096, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 17
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .hbm, ⟨5, _⟩ => ⟨S_, .i32⟩
  | .hbm, ⟨6, _⟩ => ⟨S_, .f32⟩
  | .hbm, ⟨7, _⟩ => ⟨S128x4096, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S8192x4096, .bf16⟩
  | .hbm, ⟨12, _⟩ => ⟨S4096x4096, .bf16⟩
  | .hbm, ⟨13, _⟩ => ⟨S128x4096, .bf16⟩
  | .hbm, ⟨14, _⟩ => ⟨S4096x128, .bf16⟩
  | .hbm, ⟨15, _⟩ => ⟨S8192x4096, .f32⟩
  | .hbm, ⟨16, _⟩ => ⟨S2x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  pads_S16x4096_S128x4096_01120_000 : S16x4096.Pads (![0, 0] : Fin 2 → Nat) ![112, 0] ![0, 0] S128x4096
  h_S_ : 0 < S_.numel
  pads_S4096x16_S4096x128_000_01120 : S4096x16.Pads (![0, 0] : Fin 2 → Nat) ![0, 112] ![0, 0] S4096x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S8192x4096_S2x4096x4096 : S8192x4096.ShapeCasts S2x4096x4096
  dot_S1024x1024_S1024x1024_S1024x1024_1_1_0_0_n_n_wf : DotDims.WF S1024x1024 S1024x1024 S1024x1024 [1] [1] [0] [0] [] []
  dot_S1024x1024_S128x1024_S1024x128_1_1_0_0_n_n_wf : DotDims.WF S1024x1024 S128x1024 S1024x128 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .bf16 = 32 ∨ (Rect.block (s := S128x4096) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S2x4096x16 : Shape := ⟨3, ![2, 4096, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S2x4096x4096, .f32⟩
  | .hbm, ⟨5, _⟩ => ⟨S2x4096x16, .f32⟩
  | .hbm, ⟨6, _⟩ => ⟨S2x4096x4096, .f32⟩
  | .hbm, ⟨7, _⟩ => ⟨S_, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S16x4096_S2x4096x16_2_1_01_0_n_n_wf : DotDims.WF S2x4096x4096 S16x4096 S2x4096x16 [2] [1] [0, 1] [0] [] []
  dot_S2x4096x16_S4096x16_S2x4096x4096_2_1_01_0_n_n_wf : DotDims.WF S2x4096x16 S4096x16 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S16x4096_S2x4096x16_2_1_01_0_n_n : DotDims S2x4096x4096 S16x4096 S2x4096x16 where
  lhsContracting := [2]
  rhsContracting := [1]
  lhsNonContracting := [0, 1]
  rhsNonContracting := [0]
  lhsBatch := []
  rhsBatch := []
  wf := dot_S2x4096x4096_S16x4096_S2x4096x16_2_1_01_0_n_n_wf
def dot_S2x4096x16_S4096x16_S2x4096x4096_2_1_01_0_n_n : DotDims S2x4096x16 S4096x16 S2x4096x4096 where
  lhsContracting := [2]
  rhsContracting := [1]
  lhsNonContracting := [0, 1]
  rhsNonContracting := [0]
  lhsBatch := []
  rhsBatch := []
  wf := dot_S2x4096x16_S4096x16_S2x4096x4096_2_1_01_0_n_n_wf

class Facts : Prop extends Facts₀ where

variable [Facts]
-- ==== Proof.LoraSpec.lean ====
/-
  A linear layer with a low-rank correction, entry by entry over the extended reals, and the two facts
  about finite sums that let a blocked, rank-padded evaluation of it be compared with the plain one.

  The layer: for a batch of sequences x (2 x 4096 rows of 4096 features), a base weight W (4096 x 4096,
  one row per output feature), a down-projection A (16 x 4096) and an up-projection B (4096 x 16),

      y[b, s, o] = sum_d x[b, s, d] W[o, d]  +  (sum_r (sum_d x[b, s, d] A[r, d]) B[o, r]) * 2.

  A blocked evaluation walks the 4096 features in four consecutive blocks of 1024 and adds the blocks'
  partial sums; a rank-padded one carries 128 ranks of which only the first 16 are the layer's, the other
  112 meeting a zero of the padded up-projection. Addition of extended reals is commutative and
  associative and a product with zero is zero at the infinities too, so neither change moves the value,
  and no input needs to be finite for it.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Hand.Lora

open Idealize.ShloMosaic Idealize.ShloMosaic.ValueIdx

/-! ## Four blocks of 1024 features are the 4096 features -/

section Sums
variable {M : Type*} [AddCommMonoid M]

/-- Feature `d` of feature block `k`: the blocks are consecutive runs of 1024. -/
abbrev col (k : Fin 4) (d : Fin 1024) : Fin 4096 :=
  ⟨1024 * k.val + d.val, by have := k.isLt; have := d.isLt; omega⟩

/-- (block, feature in the block) to feature: a bijection. -/
def colsEquiv : Fin 4 × Fin 1024 ≃ Fin 4096 :=
  finProdFinEquiv.trans (finCongr (by norm_num : 4 * 1024 = 4096))

theorem colsEquiv_apply (k : Fin 4) (d : Fin 1024) : colsEquiv (k, d) = col k d :=
  Fin.ext (by
    show d.val + 1024 * k.val = 1024 * k.val + d.val
    exact Nat.add_comm _ _)

/-- A sum over the features is the sum over the blocks of the sums over each block's features. -/
theorem sum_cols (f : Fin 4096 → M) : ∑ d : Fin 4096, f d = ∑ k : Fin 4, ∑ d : Fin 1024, f (col k d) := by
  rw [← Equiv.sum_comp colsEquiv f, Fintype.sum_prod_type]
  exact Finset.sum_congr rfl fun k _ => Finset.sum_congr rfl fun d _ => congrArg f (colsEquiv_apply k d)

/-- Rank `r` of the layer among the 128 padded ranks. -/
abbrev rk (r : Fin 16) : Fin 128 := ⟨r.val, by have := r.isLt; omega⟩

/-- A sum over 128 ranks whose terms vanish from rank 16 on is the sum over the first 16 ranks. -/
theorem sum_ranks (g : Fin 128 → M) (hg : ∀ r : Fin 128, 16 ≤ r.val → g r = 0) :
    ∑ r : Fin 128, g r = ∑ r : Fin 16, g (rk r) := by
  have e := Fin.sum_univ_add (a := 16) (b := 112) (fun r : Fin (16 + 112) => g ⟨r.val, r.isLt⟩)
  have z : ∑ r : Fin 112, g ⟨(Fin.natAdd 16 r).val, (Fin.natAdd 16 r).isLt⟩ = 0 :=
    Finset.sum_eq_zero fun r _ => hg _ (Nat.le_add_right 16 r.val)
  rw [z, add_zero] at e
  exact e

end Sums

/-! ## The layer, and its blocked and padded evaluation -/

/-- The word of the float 2, as an extended real; both programs scale the correction by this word. -/
abbrev two : EReal := Ideal.ofBits .f32 0x40000000#32

/-- Entry (b, s, o) of the layer. -/
def entry (X : (⟨3, ![2, 4096, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (b : Fin 2) (s : Fin 4096) (o : Fin 4096) : EReal :=
  (∑ d : Fin 4096, X (ix3 b s d) * W (ix2 o d))
    + (∑ r : Fin 16, (∑ d : Fin 4096, X (ix3 b s d) * A (ix2 r d)) * B (ix2 o r)) * two

/-- The layer as an array of shape 2 x 4096 x 4096. -/
def layer (X : (⟨3, ![2, 4096, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal) :
    (⟨3, ![2, 4096, 4096]⟩ : Shape).Idx → EReal :=
  fun i => entry X W A B ⟨(i 0).val, (i 0).isLt⟩ ⟨(i 1).val, (i 1).isLt⟩ ⟨(i 2).val, (i 2).isLt⟩

/-- Row `m` against output feature `n`, evaluated block by block over the features, on the flattened
    8192-row input, a 128-rank down-projection and a 128-rank up-projection. -/
def blocked (X2 : (⟨2, ![8192, 4096]⟩ : Shape).Idx → EReal) (W2 : (⟨2, ![4096, 4096]⟩ : Shape).Idx → EReal)
    (A2 : (⟨2, ![128, 4096]⟩ : Shape).Idx → EReal) (B2 : (⟨2, ![4096, 128]⟩ : Shape).Idx → EReal)
    (m : Fin 8192) (n : Fin 4096) : EReal :=
  (∑ k : Fin 4, ∑ d : Fin 1024, X2 (ix2 m (col k d)) * W2 (ix2 n (col k d)))
    + (∑ r : Fin 128, (∑ k : Fin 4, ∑ d : Fin 1024, X2 (ix2 m (col k d)) * A2 (ix2 r (col k d))) * B2 (ix2 n r)) * two

/-- The blocked, padded evaluation is the layer's entry: when row `m` of the flattened input is row
    (b, s) of the input, the first 16 ranks of the padded projections are the projections', and the
    padded up-projection is zero from rank 16 on. -/
theorem blocked_eq_entry (X2 : (⟨2, ![8192, 4096]⟩ : Shape).Idx → EReal) (W2 : (⟨2, ![4096, 4096]⟩ : Shape).Idx → EReal)
    (A2 : (⟨2, ![128, 4096]⟩ : Shape).Idx → EReal) (B2 : (⟨2, ![4096, 128]⟩ : Shape).Idx → EReal)
    (X : (⟨3, ![2, 4096, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (m : Fin 8192) (n : Fin 4096) (b : Fin 2) (s : Fin 4096)
    (hX : ∀ d, X2 (ix2 m d) = X (ix3 b s d)) (hW : ∀ d, W2 (ix2 n d) = W (ix2 n d))
    (hA : ∀ (r : Fin 16) d, A2 (ix2 (rk r) d) = A (ix2 r d))
    (hB : ∀ r : Fin 16, B2 (ix2 n (rk r)) = B (ix2 n r))
    (hB0 : ∀ r : Fin 128, 16 ≤ r.val → B2 (ix2 n r) = 0) :
    blocked X2 W2 A2 B2 m n = entry X W A B b s n := by
  -- the base product: four blocks of features are all the features
  have h1 : (∑ k : Fin 4, ∑ d : Fin 1024, X2 (ix2 m (col k d)) * W2 (ix2 n (col k d)))
      = ∑ d : Fin 4096, X (ix3 b s d) * W (ix2 n d) := by
    rw [← sum_cols (fun d => X2 (ix2 m d) * W2 (ix2 n d))]
    exact Finset.sum_congr rfl fun d _ => by rw [hX, hW]
  -- the down-projection of a rank of the layer, likewise
  have h2 : ∀ r : Fin 16, (∑ k : Fin 4, ∑ d : Fin 1024, X2 (ix2 m (col k d)) * A2 (ix2 (rk r) (col k d)))
      = ∑ d : Fin 4096, X (ix3 b s d) * A (ix2 r d) := fun r => by
    rw [← sum_cols (fun d => X2 (ix2 m d) * A2 (ix2 (rk r) d))]
    exact Finset.sum_congr rfl fun d _ => by rw [hX, hA]
  -- the up-projection: the padded ranks meet a zero
  have h3 : (∑ r : Fin 128, (∑ k : Fin 4, ∑ d : Fin 1024, X2 (ix2 m (col k d)) * A2 (ix2 r (col k d))) * B2 (ix2 n r))
      = ∑ r : Fin 16, (∑ d : Fin 4096, X (ix3 b s d) * A (ix2 r d)) * B (ix2 n r) := by
    rw [sum_ranks (fun r => (∑ k : Fin 4, ∑ d : Fin 1024, X2 (ix2 m (col k d)) * A2 (ix2 r (col k d))) * B2 (ix2 n r))
      (fun r hr => by rw [hB0 r hr, mul_zero])]
    exact Finset.sum_congr rfl fun r _ => by rw [h2 r, hB r]
  unfold blocked entry
  rw [h1, h3]

end Cert.Hand.Lora

end
-- ==== Proof.RefValue.lean ====
/-
  The reference computes the layer.

  Its seven host operations are three contractions over one axis each, a constant, its broadcast, a product
  and a sum. Read at an index (b, s, o), the first contraction is sum_d x[b, s, d] W[o, d]; the second, at
  (b, s, r), is sum_d x[b, s, d] A[r, d]; the third contracts that over the 16 ranks against B[o, r]; the
  product scales it by the word of 2 and the sum adds the first contraction. That is the layer's entry as
  written, term for term.
-/
import proofs.«135183_j30803505447138_1_alg».proof.Proof.Gen.ReferenceIdeal.Run
import proofs.«135183_j30803505447138_1_alg».proof.Proof.Gen.ReferenceIdeal.Read
import proofs.«135183_j30803505447138_1_alg».proof.Proof.LoraSpec

noncomputable section

namespace Cert.ReferenceIdeal.RefValue

open Cert.ReferenceIdeal Cert.ReferenceIdeal.Read Idealize.ShloMosaic Idealize.ShloMosaic.ValueIdx Cert.Hand.Lora

/-! ## Where each contraction reads its operands -/

theorem lidx0 (i : S2x4096x4096.Idx) (k : Fin 4096) :
    lidx_main_v0 i k = ix3 (⟨(i 0).val, (i 0).isLt⟩ : Fin 2) (⟨(i 1).val, (i 1).isLt⟩ : Fin 4096) k :=
  funext fun a => by match a with | ⟨0, _⟩ => rfl | ⟨1, _⟩ => rfl | ⟨2, _⟩ => rfl

theorem ridx0 (i : S2x4096x4096.Idx) (k : Fin 4096) :
    ridx_main_v0 i k = ix2 (⟨(i 2).val, (i 2).isLt⟩ : Fin 4096) k :=
  funext fun a => by match a with | ⟨0, _⟩ => rfl | ⟨1, _⟩ => rfl

theorem lidx1 (j : S2x4096x16.Idx) (k : Fin 4096) :
    lidx_main_v1 j k = ix3 (⟨(j 0).val, (j 0).isLt⟩ : Fin 2) (⟨(j 1).val, (j 1).isLt⟩ : Fin 4096) k :=
  funext fun a => by match a with | ⟨0, _⟩ => rfl | ⟨1, _⟩ => rfl | ⟨2, _⟩ => rfl

theorem ridx1 (j : S2x4096x16.Idx) (k : Fin 4096) :
    ridx_main_v1 j k = ix2 (⟨(j 2).val, (j 2).isLt⟩ : Fin 16) k :=
  funext fun a => by match a with | ⟨0, _⟩ => rfl | ⟨1, _⟩ => rfl

theorem lidx2 (i : S2x4096x4096.Idx) (r : Fin 16) :
    lidx_main_v2 i r = ix3 (⟨(i 0).val, (i 0).isLt⟩ : Fin 2) (⟨(i 1).val, (i 1).isLt⟩ : Fin 4096) r :=
  funext fun a => by match a with | ⟨0, _⟩ => rfl | ⟨1, _⟩ => rfl | ⟨2, _⟩ => rfl

theorem ridx2 (i : S2x4096x4096.Idx) (r : Fin 16) :
    ridx_main_v2 i r = ix2 (⟨(i 2).val, (i 2).isLt⟩ : Fin 4096) r :=
  funext fun a => by match a with | ⟨0, _⟩ => rfl | ⟨1, _⟩ => rfl

/-! ## The reference's result is the layer -/

/-- The down-projection at (b, s, r). -/
theorem down_apply (x0 : FVec Ideal S2x4096x4096 .f32) (x2 : FVec Ideal S16x4096 .f32) (b : Fin 2) (s : Fin 4096) (r : Fin 16) :
    val_main_v1 (F := Ideal) x0 x2 (ix3 b s r) = ∑ d : Fin 4096, x0 (ix3 b s d) * x2 (ix2 r d) := by
  rw [val_main_v1_apply]
  exact Finset.sum_congr rfl fun d _ => by rw [lidx1, ridx1]

/-- The result of the reference, as one function of its four arguments, is the layer. -/
theorem result_eq (x0 : FVec Ideal S2x4096x4096 .f32) (x1 : FVec Ideal S4096x4096 .f32) (x2 : FVec Ideal S16x4096 .f32)
    (x3 : FVec Ideal S4096x16 .f32) : val_main_v5 (F := Ideal) x0 x1 x2 x3 = layer x0 x1 x2 x3 := by
  funext i
  rw [val_main_v5_apply, val_main_v0_apply, val_main_v4_apply, val_main_v2_apply, val_main_v3_apply, val_main_cst_apply]
  have e0 : (∑ k : Fin 4096, x0 (lidx_main_v0 i k) * x1 (ridx_main_v0 i k))
      = ∑ d : Fin 4096, x0 (ix3 (⟨(i 0).val, (i 0).isLt⟩ : Fin 2) (⟨(i 1).val, (i 1).isLt⟩ : Fin 4096) d)
          * x1 (ix2 (⟨(i 2).val, (i 2).isLt⟩ : Fin 4096) d) :=
    Finset.sum_congr rfl fun d _ => by rw [lidx0, ridx0]
  have e2 : (∑ k : Fin 16, val_main_v1 (F := Ideal) x0 x2 (lidx_main_v2 i k) * x3 (ridx_main_v2 i k))
      = ∑ r : Fin 16, (∑ d : Fin 4096, x0 (ix3 (⟨(i 0).val, (i 0).isLt⟩ : Fin 2) (⟨(i 1).val, (i 1).isLt⟩ : Fin 4096) d) * x2 (ix2 r d))
          * x3 (ix2 (⟨(i 2).val, (i 2).isLt⟩ : Fin 4096) r) :=
    Finset.sum_congr rfl fun r _ => by rw [lidx2, ridx2, down_apply]
  rw [e0, e2]
  rfl

end Cert.ReferenceIdeal.RefValue

end
-- ==== Proof.Pieces.lean ====
/-
  What one grid point leaves behind, case by case, as the body's own arithmetic.

  The body keeps two running totals between grid points: the base product's 1024 x 1024 block and the
  down-projection's 1024 x 128 block. At the first of the four feature blocks it clears both and adds that
  block's contribution; at the later ones it adds to what the point before left; at the last one it also
  writes the output block, from the two totals as they stand after that point's own additions and the
  up-projection's block. The runs found each buffer's final contents as a list of stored pieces; here each
  list is read back as one value: every store covers its buffer whole, so the last store's value is the
  contents, and a load that follows a store of the same buffer reads that store's value.
-/
import proofs.«135183_j30803505447138_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

variable (c : Dev nD) (i : grid0.Coords)
  (arg3 : Memref sig .tc .vmem S1024x1024 .bf16) (harg3 : arg3.IsWhole)
  (arg4 : Memref sig .tc .vmem S1024x1024 .bf16) (harg4 : arg4.IsWhole)
  (arg5 : Memref sig .tc .vmem S128x1024 .bf16) (harg5 : arg5.IsWhole)
  (arg6 : Memref sig .tc .vmem S1024x128 .bf16) (harg6 : arg6.IsWhole)
  (arg7 : Memref sig .tc .vmem S1024x1024 .f32) (harg7 : arg7.IsWhole)
  (arg8 : Memref sig .tc .vmem S1024x1024 .f32) (harg8 : arg8.IsWhole)
  (arg9 : Memref sig .tc .vmem S1024x128 .f32) (harg9 : arg9.IsWhole)
  (x0 : Vec F S1024x1024 .bf16) (x1 : Vec F S1024x1024 .bf16) (x2 : Vec F S128x1024 .bf16) (x3 : Vec F S1024x128 .bf16)
  (xs0 : Vec F S1024x1024 .f32) (xs1 : Vec F S1024x128 .f32)

/-- Every store and load of the body starts at the origin of its buffer. -/
theorem hz : (![0, 0] : Fin 2 → Nat) = fun _ => 0 := funext fun a => by fin_cases a <;> rfl

/-! ## The first feature block: both totals cleared, then this block added -/

/-- The base total after a first block: the cleared block plus this block's product. -/
theorem accA (hc0 : cond0_0 i) (hc1 : ¬cond0_1 i) :
    sout0_A_0 c i arg3 harg3 arg4 harg4 arg5 harg5 arg6 harg6 arg7 harg7 arg8 harg8 arg9 harg9 hc0 hc1 x0 x1 x2 x3 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- The down-projection total after a first block: the cleared block plus this block's product. -/
theorem midA (hc0 : cond0_0 i) (hc1 : ¬cond0_1 i) :
    sout0_A_1 c i arg3 harg3 arg4 harg4 arg5 harg5 arg6 harg6 arg7 harg7 arg8 harg8 arg9 harg9 hc0 hc1 x0 x1 x2 x3 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg3.read_unread, harg5.read_unread, View.ld_unit_zero (S := S1024x1024) hz,
    View.ld_unit_zero (S := S128x1024) hz]

/-! ## A middle feature block: this block added to what the point before left -/

theorem accB (hc0 : ¬cond0_0 i) (hc1 : ¬cond0_1 i) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg8.read_unread, View.ld_unit_zero (S := S1024x1024) hz]

theorem midB (hc0 : ¬cond0_0 i) (hc1 : ¬cond0_1 i) :
    sout0_B_1 c i arg3 harg3 arg4 harg4 arg5 harg5 arg6 harg6 arg7 harg7 arg8 harg8 arg9 harg9 hc0 hc1 x0 x1 x2 x3 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg5.read_unread, harg9.read_unread, View.ld_unit_zero (S := S1024x1024) hz,
    View.ld_unit_zero (S := S128x1024) hz, View.ld_unit_zero (S := S1024x128) hz]

/-! ## The last feature block: the totals as before, and the output block from them -/

theorem accC (hc0 : ¬cond0_0 i) (hc1 : cond0_1 i) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg8.read_unread, View.ld_unit_zero (S := S1024x1024) hz]

theorem midC (hc0 : ¬cond0_0 i) (hc1 : cond0_1 i) :
    sout0_C_1 c i arg3 harg3 arg4 harg4 arg5 harg5 arg6 harg6 arg7 harg7 arg8 harg8 arg9 harg9 hc0 hc1 x0 x1 x2 x3 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg5.read_unread, harg9.read_unread, View.ld_unit_zero (S := S1024x1024) hz,
    View.ld_unit_zero (S := S128x1024) hz, View.ld_unit_zero (S := S1024x128) hz]

/-- The output block: the base total as this point leaves it, plus the up-projection of the down-projection
    total as this point leaves it, scaled. -/
theorem outC (hc0 : ¬cond0_0 i) (hc1 : cond0_1 i) :
    out0_C_4 c i arg3 harg3 arg4 harg4 arg5 harg5 arg6 harg6 arg7 harg7 arg8 harg8 arg9 harg9 hc0 hc1 x0 x1 x2 x3 xs0 xs1 = k0_pay6 x3 (k0_pay5 x0 x2 xs1) (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread,
    harg9.read_unread, View.readCov_unit_zero (S := S1024x1024) _ hz, View.readCov_unit_zero (S := S1024x128) _ hz,
    View.ld_unit_zero (S := S1024x1024) hz, View.ld_unit_zero (S := S128x1024) hz, View.ld_unit_zero (S := S1024x128) hz]

end Cert.KernelIdeal.Pieces

end
-- ==== Proof.Totals.lean ====
/-
  The two running totals, point by point, and the output block at a last feature block.

  Grid point t walks feature block t mod 4 of an (input row block, output row block) pair. The totals after
  a point are: at a first feature block, one accumulation step from the cleared totals; at any later one,
  one accumulation step from the totals the point before left. At a last feature block the output's
  staging buffer holds the output step applied to the totals as that same point leaves them. Nothing here
  depends on what a float is: the case equations of the frame and the pieces read back as values.
-/
import proofs.«135183_j30803505447138_1_alg».proof.Proof.Gen.KernelIdeal.Frame
import proofs.«135183_j30803505447138_1_alg».proof.Proof.Pieces

noncomputable section

open Idealize.ShloMosaic Idealize.ShloMosaic.TcCoe Idealize.SL.Sem

namespace Cert.KernelIdeal.Totals

open Cert.KernelIdeal Cert.KernelIdeal.Gen

variable {F : FTy → Type} [FloatOps F]
variable (m : (ℓ : Loc nD τ sig) → Buf (Elt F) ℓ)

/-- The input row block's feature block at point t. -/
abbrev xb (c : Dev nD) (t : Fin cfg0.N) : Vec F S1024x1024 .bf16 := iblk m c 0 t
/-- The base weight's block at point t: output rows by features. -/
abbrev wb (c : Dev nD) (t : Fin cfg0.N) : Vec F S1024x1024 .bf16 := iblk m c 1 t
/-- The padded down-projection's feature block at point t. -/
abbrev ab (c : Dev nD) (t : Fin cfg0.N) : Vec F S128x1024 .bf16 := iblk m c 2 t
/-- The padded up-projection's output row block at point t. -/
abbrev bb (c : Dev nD) (t : Fin cfg0.N) : Vec F S1024x128 .bf16 := iblk m c 3 t

/-- The base total after point n. -/
abbrev accAt (c : Dev nD) (n : ℕ) (h : n < cfg0.N) : Vec F S1024x1024 .f32 := (outsAt0 m c n h).2.1
/-- The down-projection total after point n. -/
abbrev midAt (c : Dev nD) (n : ℕ) (h : n < cfg0.N) : Vec F S1024x128 .f32 := (outsAt0 m c n h).2.2

/-- At a first feature block: one step from the cleared totals. -/
theorem first (c : Dev nD) (t : Fin cfg0.N) (h0 : t.val % 4 = 0) :
    accAt m c t.val t.isLt = k0_pay4 (xb m c t) (wb m c t) (k0_pay1 (F := F))
      ∧ midAt m c t.val t.isLt = k0_pay5 (xb m c t) (ab m c t) (k0_pay2 (F := F)) := by
  have h1 : ¬t.val % 4 = 3 := by omega
  show (outsAt0 m c t.val t.isLt).2.1 = _ ∧ (outsAt0 m c t.val t.isLt).2.2 = _
  rw [outsAt0_A m c t h0 h1]
  dsimp only
  exact ⟨Pieces.accA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)),
    Pieces.midA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))⟩

/-- At a later feature block: one step from what the point before left. -/
theorem later (c : Dev nD) (t : Fin cfg0.N) (h0 : ¬t.val % 4 = 0) :
    accAt m c t.val t.isLt
        = k0_pay4 (xb m c t) (wb m c t) (accAt m c (t.val - 1) (Nat.lt_of_le_of_lt (Nat.sub_le _ _) t.isLt))
      ∧ midAt m c t.val t.isLt
        = k0_pay5 (xb m c t) (ab m c t) (midAt m c (t.val - 1) (Nat.lt_of_le_of_lt (Nat.sub_le _ _) t.isLt)) := by
  show (outsAt0 m c t.val t.isLt).2.1 = _ ∧ (outsAt0 m c t.val t.isLt).2.2 = _
  by_cases h1 : t.val % 4 = 3
  · rw [outsAt0_C m c t h0 h1]
    dsimp only
    exact ⟨Pieces.accC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1),
      Pieces.midC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)⟩
  · rw [outsAt0_B m c t h0 h1]
    dsimp only
    exact ⟨Pieces.accB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)),
      Pieces.midB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))⟩

/-- At a last feature block the output's staging buffer holds the output step of the totals after that point. -/
theorem out (c : Dev nD) (t : Fin cfg0.N) (h1 : t.val % 4 = 3) :
    (outsAt0 m c t.val t.isLt).1 = k0_pay6 (bb m c t) (midAt m c t.val t.isLt) (accAt m c t.val t.isLt) := by
  have h0 : ¬t.val % 4 = 0 := by omega
  obtain ⟨ea, em⟩ := later m c t h0
  rw [ea, em]
  rw [outsAt0_C m c t h0 h1]
  dsimp only
  exact Pieces.outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)

end Cert.KernelIdeal.Totals

end
-- ==== Proof.LibRowsDot.lean ====
/-
  A product of two matrices stored row by row, contracted along the columns of both.

  For L of M rows and K columns and R of N rows and K columns, the product that contracts axis 1 of
  both (L times the transpose of R) has, at row p and column q, the sum over the shared axis of
  L[p, d] R[q, d]. This is the reading of such a product into a zero accumulator at the exact
  instance, at any extents and any operand float formats; the dimension numbers may be any record
  with contracting axes 1 and 1, free axes 0 and 0 and no batch axes.
-/
import Idealize.ShloMosaic.PureOps.Ideal.Laws
import Idealize.ShloMosaic.Lib.ValueIdx

noncomputable section

open scoped BigOperators

namespace Cert.Hand.LibRowsDot

open Idealize.ShloMosaic Idealize.ShloMosaic.ValueIdx

/-- The dimension numbers: contract axis 1 of both operands, keep axis 0 of each, no batch axes. -/
abbrev colDims {M K N : Nat}
    (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

/-- At those dimension numbers entry (p, q) reads the left operand at (p, d) and the right operand at (q, d),
    d the contracted column; into a zero accumulator the entry is the sum of those products. -/
theorem core {M K N : Nat} {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    matmul (colDims w) prec l r (constant (F := Ideal) ⟨2, ![M, N]⟩ .f32 0x00000000#32) (ix2 p q)
      = ∑ d : Fin K, l (ix2 p d) * r (ix2 q d) := by
  show FloatOps.matmul (colDims w) prec l r (constant (F := Ideal) ⟨2, ![M, N]⟩ .f32 0x00000000#32) (ix2 p q) = _
  rw [Ideal.matmul_constant_zero_apply, ← Equiv.sum_comp (contrEquiv1 (colDims w) K rfl rfl).symm]
  refine Finset.sum_congr rfl fun d _ => ?_
  have hd := contrEquiv1_symm_val (colDims w) K rfl rfl d
  have l0 : ∀ k, ((colDims w).lhsIdx (ix2 p q) k 0).val = p.val := fun k => by
    unfold DotDims.lhsIdx
    rw [dif_neg (show ¬(0 : Fin 2) ∈ ([] : List (Fin 2)) by decide), dif_pos (show (0 : Fin 2) ∈ ([0] : List (Fin 2)) by decide)]
    rfl
  have r0 : ∀ k, ((colDims w).rhsIdx (ix2 p q) k 0).val = q.val := fun k => by
    unfold DotDims.rhsIdx
    rw [dif_neg (show ¬(0 : Fin 2) ∈ ([] : List (Fin 2)) by decide), dif_pos (show (0 : Fin 2) ∈ ([0] : List (Fin 2)) by decide)]
    rfl
  have el : (colDims w).lhsIdx (ix2 p q) ((contrEquiv1 (colDims w) K rfl rfl).symm d) = ix2 p d :=
    funext fun a => Fin.ext (by
      match a with
      | ⟨0, _⟩ => exact l0 _
      | ⟨1, _⟩ => exact ((colDims w).lhsIdx_val_of_single rfl _ _).trans hd)
  have er : (colDims w).rhsIdx (ix2 p q) ((contrEquiv1 (colDims w) K rfl rfl).symm d) = ix2 q d :=
    funext fun a => Fin.ext (by
      match a with
      | ⟨0, _⟩ => exact r0 _
      | ⟨1, _⟩ => exact ((colDims w).rhsIdx_val_of_single rfl _ _).trans hd)
  rw [el, er]

/-- The product of an M x K block and an N x K block along their columns, into a zero accumulator: entry (p, q)
    is the sum over the columns d of (left at (p, d)) times (right at (q, d)). -/
theorem apply {M K N : Nat} {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (p : Fin M) (q : Fin N) :
    matmul D prec l r (constant ⟨2, ![M, N]⟩ .f32 0x00000000#32) (ix2 p q)
      = ∑ d : Fin K, l (ix2 p d) * r (ix2 q d) := by
  cases D with
  | mk lc rc ln rn lb rb wf =>
    dsimp only at hlc hrc hln hrn hlb hrb
    subst hlc hrc hln hrn hlb hrb
    exact core wf prec l r p q

end Cert.Hand.LibRowsDot

end
-- ==== Proof.Payloads.lean ====
/-
  The body's arithmetic, entry by entry over the extended reals.

  The two clears store zero. An accumulation step leaves, at row p and column q of a total, what was
  there plus the sum over the block's 1024 features d of x[p, d] w[q, d]: a product along the columns of
  both operands into a zero accumulator, added to the loaded total; the narrowing of a float format is the
  identity on extended reals. The output step leaves the base total plus twice-scaled up-projection: the
  sum over the 128 padded ranks r of mid[p, r] b[q, r], times the word of 2, added to the base total.
-/
import proofs.«135183_j30803505447138_1_alg».proof.Proof.Gen.KernelIdeal.Skeleton
import proofs.«135183_j30803505447138_1_alg».proof.Proof.LibRowsDot
import proofs.«135183_j30803505447138_1_alg».proof.Proof.LoraSpec
import Idealize.ShloMosaic.Lib.Pipeline.Value

noncomputable section

open scoped BigOperators

namespace Cert.KernelIdeal.Payloads

open Cert.KernelIdeal Cert.KernelIdeal.Gen Idealize.ShloMosaic Idealize.ShloMosaic.ValueIdx Cert.Hand.Lora

/-- The cleared base total is zero everywhere. -/
theorem clear_acc (j : S1024x1024.Idx) : k0_pay1 (F := Ideal) j = 0 := by
  unfold k0_pay1
  simp only [shapeCast_self]
  exact Ideal.ofBits_zero_f32

/-- The cleared down-projection total is zero everywhere. -/
theorem clear_mid (j : S1024x128.Idx) : k0_pay2 (F := Ideal) j = 0 := by
  unfold k0_pay2
  simp only [shapeCast_self]
  exact Ideal.ofBits_zero_f32

/-- One step of the base total. -/
theorem acc_step (x w : Vec Ideal S1024x1024 .bf16) (acc : Vec Ideal S1024x1024 .f32) (p q : Fin 1024) :
    k0_pay4 x w acc (ix2 p q) = acc (ix2 p q) + ∑ d : Fin 1024, x (ix2 p d) * w (ix2 q d) := by
  unfold k0_pay4 k0_pay3
  simp only [shapeCast_self]
  exact congrArg (fun z => acc (ix2 p q) + z)
    (Cert.Hand.LibRowsDot.apply dot_S1024x1024_S1024x1024_S1024x1024_1_1_0_0_n_n rfl rfl rfl rfl rfl rfl none x w p q)

/-- One step of the down-projection total. -/
theorem mid_step (x : Vec Ideal S1024x1024 .bf16) (a : Vec Ideal S128x1024 .bf16) (mid : Vec Ideal S1024x128 .f32)
    (p : Fin 1024) (r : Fin 128) :
    k0_pay5 x a mid (ix2 p r) = mid (ix2 p r) + ∑ d : Fin 1024, x (ix2 p d) * a (ix2 r d) := by
  unfold k0_pay5 k0_pay3
  simp only [shapeCast_self]
  exact congrArg (fun z => mid (ix2 p r) + z)
    (Cert.Hand.LibRowsDot.apply dot_S1024x1024_S128x1024_S1024x128_1_1_0_0_n_n rfl rfl rfl rfl rfl rfl none x a p r)

/-- The output block from the two totals and the up-projection's block. -/
theorem out_step (b : Vec Ideal S1024x128 .bf16) (mid : Vec Ideal S1024x128 .f32) (acc : Vec Ideal S1024x1024 .f32)
    (p q : Fin 1024) :
    k0_pay6 b mid acc (ix2 p q) = acc (ix2 p q) + (∑ r : Fin 128, mid (ix2 p r) * b (ix2 q r)) * two := by
  unfold k0_pay6
  simp only [shapeCast_self]
  exact congrArg (fun z => acc (ix2 p q) + z * two)
    ((Cert.Hand.LibRowsDot.apply dot_S1024x128_S1024x128_S1024x1024_1_1_0_0_n_n rfl rfl rfl rfl rfl rfl none
      (truncf .bf16 mid bitsLt_bf16_f32) b p q).trans (Finset.sum_congr rfl fun r _ => rfl))

end Cert.KernelIdeal.Payloads

end
-- ==== Proof.Closed.lean ====
/-
  What the region's result array holds: every entry the blocked, padded evaluation of the layer.

  The grid is 8 input row blocks by 4 output row blocks by 4 feature blocks, the feature block moving
  fastest: point t is input row block t / 16, output row block (t / 4) mod 4, feature block t mod 4.
  After point t the base total at (p, q) is the sum, over the feature blocks 0 .. t mod 4, of the block's
  products of input row 1024 (t / 16) + p with weight row 1024 ((t / 4) mod 4) + q, and the
  down-projection total likewise against the padded down-projection: by induction on the point, a first
  feature block starting from zero and a later one adding to the total before, whose row blocks are the
  same because the feature block moves fastest. At a last feature block the sums run over all four
  blocks, and the output block is the blocked evaluation at those rows. The 32 output blocks written
  back, one per last feature block, tile the 8192 x 4096 array.
-/
import proofs.«135183_j30803505447138_1_alg».proof.Proof.Gen.KernelIdeal.Frame
import proofs.«135183_j30803505447138_1_alg».proof.Proof.Totals
import proofs.«135183_j30803505447138_1_alg».proof.Proof.Payloads
import proofs.«135183_j30803505447138_1_alg».proof.Proof.LoraSpec
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Closed

open Cert.KernelIdeal Cert.KernelIdeal.Gen Cert.KernelIdeal.Totals Cert.KernelIdeal.Payloads
open Cert.Hand.Lora Idealize.ShloMosaic.ValueIdx

variable (m : (ℓ : Loc nD τ sig) → Buf (Elt Ideal) ℓ)

/-- The flattened input, the base weight and the two padded projections, as the region finds them. -/
abbrev X2 (c : Dev nD) : FVec Ideal S8192x4096 .bf16 := V m c main_v3
abbrev W2 (c : Dev nD) : FVec Ideal S4096x4096 .bf16 := V m c main_v4
abbrev A2 (c : Dev nD) : FVec Ideal S128x4096 .bf16 := V m c main_v5
abbrev B2 (c : Dev nD) : FVec Ideal S4096x128 .bf16 := V m c main_v6

/-- Row p of the a-th block of 1024 rows among 8192 (a read modulo 8). -/
abbrev r8 (a : ℕ) (p : Fin 1024) : Fin 8192 := ⟨1024 * (a % 8) + p.val, by have := p.isLt; omega⟩
/-- Entry q of the a-th block of 1024 among 4096 (a read modulo 4): a weight row, or a feature. -/
abbrev c4 (a : ℕ) (q : Fin 1024) : Fin 4096 := ⟨1024 * (a % 4) + q.val, by have := q.isLt; omega⟩

theorem c4_col (k : Fin 4) (d : Fin 1024) : c4 k.val d = col k d :=
  Fin.ext (by show 1024 * (k.val % 4) + d.val = 1024 * k.val + d.val; have := k.isLt; omega)

/-- The printed index maps, decided once over the 128 grid points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = t.val / 16 ∧ win0_4.index t (1 : Fin 2) = t.val / 4 % 4 :=
  (by decide +kernel : ∀ t : Fin grid0.N, _)

/-! ## The blocks the body loads, as entries of the arrays -/

theorem xb_read (c : Dev nD) (t : Fin cfg0.N) (p d : Fin 1024) :
    xb m c t (ix2 p d) = X2 m c (ix2 (r8 (t.val / 16) p) (c4 (t.val % 4) d)) := by
  obtain ⟨e0, e1, -⟩ := idx_facts t
  have hN : cfg0.N = 128 := N_0
  have ht := t.isLt
  show (iblk m c 0 t : Vec Ideal S1024x1024 .bf16) (ix2 p d) = _
  unfold iblk
  rw [View.read_apply]
  show V m c main_v3 _ = V m c main_v3 _
  congr 1
  funext a
  apply Fin.ext
  match a with
  | ⟨0, _⟩ => show win0_0.index t (0 : Fin 2) * 1024 + 1 * p.val = 1024 * (t.val / 16 % 8) + p.val; rw [e0]; omega
  | ⟨1, _⟩ => show win0_0.index t (1 : Fin 2) * 1024 + 1 * d.val = 1024 * (t.val % 4 % 4) + d.val; rw [e1]; omega

theorem wb_read (c : Dev nD) (t : Fin cfg0.N) (q d : Fin 1024) :
    wb m c t (ix2 q d) = W2 m c (ix2 (c4 (t.val / 4) q) (c4 (t.val % 4) d)) := by
  obtain ⟨-, -, e2, e3, -⟩ := idx_facts t
  show (iblk m c 1 t : Vec Ideal S1024x1024 .bf16) (ix2 q d) = _
  unfold iblk
  rw [View.read_apply]
  show V m c main_v4 _ = V m c main_v4 _
  congr 1
  funext a
  apply Fin.ext
  match a with
  | ⟨0, _⟩ => show win0_1.index t (0 : Fin 2) * 1024 + 1 * q.val = 1024 * (t.val / 4 % 4) + q.val; rw [e2]; omega
  | ⟨1, _⟩ => show win0_1.index t (1 : Fin 2) * 1024 + 1 * d.val = 1024 * (t.val % 4 % 4) + d.val; rw [e3]; omega

theorem ab_read (c : Dev nD) (t : Fin cfg0.N) (r : Fin 128) (d : Fin 1024) :
    ab m c t (ix2 r d) = A2 m c (ix2 r (c4 (t.val % 4) d)) := by
  obtain ⟨-, -, -, -, e4, e5, -⟩ := idx_facts t
  show (iblk m c 2 t : Vec Ideal S128x1024 .bf16) (ix2 r d) = _
  unfold iblk
  rw [View.read_apply]
  show V m c main_v5 _ = V m c main_v5 _
  congr 1
  funext a
  apply Fin.ext
  match a with
  | ⟨0, _⟩ => show win0_2.index t (0 : Fin 2) * 128 + 1 * r.val = r.val; rw [e4]; omega
  | ⟨1, _⟩ => show win0_2.index t (1 : Fin 2) * 1024 + 1 * d.val = 1024 * (t.val % 4 % 4) + d.val; rw [e5]; omega

theorem bb_read (c : Dev nD) (t : Fin cfg0.N) (q : Fin 1024) (r : Fin 128) :
    bb m c t (ix2 q r) = B2 m c (ix2 (c4 (t.val / 4) q) r) := by
  obtain ⟨-, -, -, -, -, -, e6, e7, -⟩ := idx_facts t
  show (iblk m c 3 t : Vec Ideal S1024x128 .bf16) (ix2 q r) = _
  unfold iblk
  rw [View.read_apply]
  show V m c main_v6 _ = V m c main_v6 _
  congr 1
  funext a
  apply Fin.ext
  match a with
  | ⟨0, _⟩ => show win0_3.index t (0 : Fin 2) * 1024 + 1 * q.val = 1024 * (t.val / 4 % 4) + q.val; rw [e6]; omega
  | ⟨1, _⟩ => show win0_3.index t (1 : Fin 2) * 128 + 1 * r.val = r.val; rw [e7]; omega

/-! ## One feature block's contribution -/

/-- Feature block k's contribution to the base product of input row block mi against output row block ni. -/
def baseTerm (c : Dev nD) (mi ni k : ℕ) (p q : Fin 1024) : EReal :=
  ∑ d : Fin 1024, X2 m c (ix2 (r8 mi p) (c4 k d)) * W2 m c (ix2 (c4 ni q) (c4 k d))

/-- Feature block k's contribution to the down-projection of input row block mi. -/
def downTerm (c : Dev nD) (mi k : ℕ) (p : Fin 1024) (r : Fin 128) : EReal :=
  ∑ d : Fin 1024, X2 m c (ix2 (r8 mi p) (c4 k d)) * A2 m c (ix2 r (c4 k d))

theorem base_block (c : Dev nD) (t : Fin cfg0.N) (p q : Fin 1024) :
    ∑ d : Fin 1024, xb m c t (ix2 p d) * wb m c t (ix2 q d) = baseTerm m c (t.val / 16) (t.val / 4) (t.val % 4) p q :=
  Finset.sum_congr rfl fun d _ => by rw [xb_read, wb_read]

theorem down_block (c : Dev nD) (t : Fin cfg0.N) (p : Fin 1024) (r : Fin 128) :
    ∑ d : Fin 1024, xb m c t (ix2 p d) * ab m c t (ix2 r d) = downTerm m c (t.val / 16) (t.val % 4) p r :=
  Finset.sum_congr rfl fun d _ => by rw [xb_read, ab_read]

/-! ## The totals after every point -/

theorem totals_closed (c : Dev nD) : ∀ (n : ℕ) (h : n < cfg0.N),
    (∀ p q : Fin 1024, accAt m c n h (ix2 p q) = ∑ k ∈ Finset.range (n % 4 + 1), baseTerm m c (n / 16) (n / 4) k p q)
    ∧ (∀ (p : Fin 1024) (r : Fin 128), midAt m c n h (ix2 p r) = ∑ k ∈ Finset.range (n % 4 + 1), downTerm m c (n / 16) k p r)
  | 0, h => by
    obtain ⟨ea, em⟩ := Totals.first m c ⟨0, h⟩ rfl
    refine ⟨fun p q => ?_, fun p r => ?_⟩
    · rw [show accAt m c 0 h = _ from ea, acc_step, clear_acc, zero_add, base_block]
      exact (Finset.sum_range_one (fun k => baseTerm m c (0 / 16) (0 / 4) k p q)).symm
    · rw [show midAt m c 0 h = _ from em, mid_step, clear_mid, zero_add, down_block]
      exact (Finset.sum_range_one (fun k => downTerm m c (0 / 16) k p r)).symm
  | n + 1, h => by
    by_cases h0 : (n + 1) % 4 = 0
    · obtain ⟨ea, em⟩ := Totals.first m c ⟨n + 1, h⟩ h0
      refine ⟨fun p q => ?_, fun p r => ?_⟩
      · rw [show accAt m c (n + 1) h = _ from ea, acc_step, clear_acc, zero_add, base_block]
        show baseTerm m c ((n + 1) / 16) ((n + 1) / 4) ((n + 1) % 4) p q = _
        rw [h0]
        exact (Finset.sum_range_one (fun k => baseTerm m c ((n + 1) / 16) ((n + 1) / 4) k p q)).symm
      · rw [show midAt m c (n + 1) h = _ from em, mid_step, clear_mid, zero_add, down_block]
        show downTerm m c ((n + 1) / 16) ((n + 1) % 4) p r = _
        rw [h0]
        exact (Finset.sum_range_one (fun k => downTerm m c ((n + 1) / 16) k p r)).symm
    · obtain ⟨ea, em⟩ := Totals.later m c ⟨n + 1, h⟩ h0
      obtain ⟨ia, im⟩ := totals_closed c n (Nat.lt_of_succ_lt h)
      have e1 : n / 16 = (n + 1) / 16 := by omega
      have e2 : n / 4 = (n + 1) / 4 := by omega
      have e3 : (n + 1) % 4 = n % 4 + 1 := by omega
      refine ⟨fun p q => ?_, fun p r => ?_⟩
      · rw [show accAt m c (n + 1) h = _ from ea, acc_step, base_block]
        show accAt m c n _ (ix2 p q) + baseTerm m c ((n + 1) / 16) ((n + 1) / 4) ((n + 1) % 4) p q = _
        rw [ia p q, e1, e2, e3, Finset.sum_range_succ _ (n % 4 + 1)]
      · rw [show midAt m c (n + 1) h = _ from em, mid_step, down_block]
        show midAt m c n _ (ix2 p r) + downTerm m c ((n + 1) / 16) ((n + 1) % 4) p r = _
        rw [im p r, e1, e3, Finset.sum_range_succ _ (n % 4 + 1)]

/-! ## The output block at a last feature block -/

theorem out_closed (c : Dev nD) (t : Fin cfg0.N) (h1 : t.val % 4 = 3) (p q : Fin 1024) :
    (outsAt0 m c t.val t.isLt).1 (ix2 p q)
      = blocked (X2 m c) (W2 m c) (A2 m c) (B2 m c) (r8 (t.val / 16) p) (c4 (t.val / 4) q) := by
  obtain ⟨ia, im⟩ := totals_closed m c t.val t.isLt
  have h4 : t.val % 4 + 1 = 4 := by omega
  have hA : accAt m c t.val t.isLt (ix2 p q)
      = ∑ k : Fin 4, ∑ d : Fin 1024, X2 m c (ix2 (r8 (t.val / 16) p) (col k d)) * W2 m c (ix2 (c4 (t.val / 4) q) (col k d)) := by
    rw [ia p q, h4, Finset.sum_range]
    refine Finset.sum_congr rfl fun k _ => ?_
    unfold baseTerm
    exact Finset.sum_congr rfl fun d _ => by rw [c4_col]
  have hM : ∀ r : Fin 128, midAt m c t.val t.isLt (ix2 p r)
      = ∑ k : Fin 4, ∑ d : Fin 1024, X2 m c (ix2 (r8 (t.val / 16) p) (col k d)) * A2 m c (ix2 r (col k d)) := fun r => by
    rw [im p r, h4, Finset.sum_range]
    refine Finset.sum_congr rfl fun k _ => ?_
    unfold downTerm
    exact Finset.sum_congr rfl fun d _ => by rw [c4_col]
  rw [Totals.out m c t h1, out_step, hA]
  unfold blocked
  refine congrArg (fun z => _ + z * two) (Finset.sum_congr rfl fun r _ => ?_)
  rw [hM r, bb_read]

/-! ## The result array -/

/-- Every entry of the region's result: the blocked evaluation at its row and column. -/
def G2 (c : Dev nD) : FVec Ideal S8192x4096 .f32 := fun j =>
  blocked (X2 m c) (W2 m c) (A2 m c) (B2 m c) ⟨(j 0).val, (j 0).isLt⟩ ⟨(j 1).val, (j 1).isLt⟩

/-- The output's staging buffer at a last feature block, as a function of the place in the block. -/
theorem out_fun (c : Dev nD) (t : Fin cfg0.N) (h1 : t.val % 4 = 3) :
    (outsAt0 m c t.val t.isLt).1 = fun y : S1024x1024.Idx =>
      blocked (X2 m c) (W2 m c) (A2 m c) (B2 m c) (r8 (t.val / 16) ⟨(y 0).val, (y 0).isLt⟩) (c4 (t.val / 4) ⟨(y 1).val, (y 1).isLt⟩) := by
  funext y
  obtain ⟨p, q, rfl⟩ : ∃ (p q : Fin 1024), y = ix2 p q := ⟨y 0, y 1, eq_ix2 y⟩
  exact out_closed m c t h1 p q

/-- The block of the result array that point t writes back, likewise. -/
theorem blk_fun (c : Dev nD) (t : Fin cfg0.N) :
    ((cfg0.win 4).blk t).view.read (Elt Ideal) (G2 m c) = fun y : S1024x1024.Idx =>
      blocked (X2 m c) (W2 m c) (A2 m c) (B2 m c) (r8 (t.val / 16) ⟨(y 0).val, (y 0).isLt⟩) (c4 (t.val / 4) ⟨(y 1).val, (y 1).isLt⟩) := by
  obtain ⟨-, -, -, -, -, -, -, -, e8, e9⟩ := idx_facts t
  have hN : cfg0.N = 128 := N_0
  have ht := t.isLt
  funext y
  rw [View.read_apply]
  show G2 m c (((cfg0.win 4).blk t).view.emb y) = _
  unfold G2
  refine congrArg₂ (blocked (X2 m c) (W2 m c) (A2 m c) (B2 m c)) (Fin.ext ?_) (Fin.ext ?_)
  · show win0_4.index t (0 : Fin 2) * 1024 + 1 * (y 0).val = 1024 * (t.val / 16 % 8) + (y 0).val
    rw [e8]; omega
  · show win0_4.index t (1 : Fin 2) * 1024 + 1 * (y 1).val = 1024 * (t.val / 4 % 4) + (y 1).val
    rw [e9]; omega

/-- What a point writes back is its block of the result. -/
theorem flushed_eq (c : Dev nD) (t : Fin cfg0.N) (hf : (cfg0.win 4).flush t = true) :
    (dats m 0 c).flushed 4 t = ((cfg0.win 4).blk t).view.read (Elt Ideal) (G2 m c) := by
  have h1 : t.val % 4 = 3 := (flush0_4 t).mp hf
  show (cfg0.win 4).cut (grid0.coords t) ((dats m 0 c).after 4 t) = _
  rw [after0_4]
  exact (out_fun m c t h1).trans (blk_fun m c t).symm

/-- Every entry of the result array is in the block some last feature block writes back. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, -, -, e8, e9⟩ := idx_facts t
  refine ⟨t, (flush0_4 t).mpr (by omega), ?_⟩
  show i ∈ ((View.whole main_v7).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e8]; omega
  | ⟨1, _⟩ =>
    show win0_4.index t (1 : Fin 2) * 1024 ≤ (i 1).val ∧ (i 1).val < win0_4.index t (1 : Fin 2) * 1024 + 1024
    rw [e9]; omega

/-- The region's result array after the run. -/
theorem final (c : Dev nD) : (dats m 0 c).arrAt 4 cfg0.N = G2 m c :=
  (dats m 0 c).arrAt_eq_of_cover 4 (G2 m c) (flushed_eq m c) cover

end Cert.KernelIdeal.Closed

end
-- ==== Proof.Arrays.lean ====
/-
  The four arrays the kernel region works on, as the host lines before it leave them.

  The input is flattened from (2, 4096) rows to 8192 rows: row 4096 b + s of the flattened array is row
  (b, s) of the input. The base weight is passed as it is. The down-projection gets 112 zero rows under
  its 16, the up-projection 112 zero columns after its 16; the padding value is the integer zero
  converted, which is the float zero. Each array is then narrowed to a shorter float format, which on
  extended reals changes nothing.
-/
import proofs.«135183_j30803505447138_1_alg».proof.Proof.Gen.KernelIdeal.Frame
import proofs.«135183_j30803505447138_1_alg».proof.Proof.LoraSpec
import Idealize.ShloMosaic.Lib.Pipeline.Value
import Idealize.ShloMosaic.Lib.StableHlo.Run
import Idealize.ShloMosaic.Lib.Tactic
import Idealize.ShloMosaic.Lib.KernelVsHost

noncomputable section

open Idealize.ShloMosaic Idealize.ShloMosaic.TcCoe Idealize.SL.Sem Idealize.ShloMosaic.StableHlo

namespace Cert.KernelIdeal.Arrays

open Cert.KernelIdeal Cert.KernelIdeal.Gen Idealize.ShloMosaic.ValueIdx Cert.Hand.Lora

/-! ## What the host lines compute, at any reading of a float -/

section AnyFloat
variable {F : FTy → Type} [FloatOps F]
variable (m : (ℓ : Loc nD τ sig) → Buf (Elt F) ℓ)

/-- The flattened, narrowed input. -/
theorem V_x (c : Dev nD) : (V m c main_v3 : FVec F S8192x4096 .bf16)
    = truncf .bf16 (shapeCast S8192x4096 (m ((c : Thread nD τ).loc main_arg0)) shapeCasts_S2x4096x4096_S8192x4096) bitsLt_bf16_f32 := by
  dsimp only [V, V0]
  simp only [hostOps0, hostOps0_1, hostOps0_2, hostOps0_3, hostOps0_4, List.flatten_cons, List.flatten_nil, List.append_nil,
    List.cons_append, List.nil_append]
  after_results
  rfl

/-- The narrowed base weight. -/
theorem V_w (c : Dev nD) : (V m c main_v4 : FVec F S4096x4096 .bf16)
    = truncf .bf16 (m ((c : Thread nD τ).loc main_arg1)) bitsLt_bf16_f32 := by
  dsimp only [V, V0]
  simp only [hostOps0, hostOps0_1, hostOps0_2, hostOps0_3, hostOps0_4, List.flatten_cons, List.flatten_nil, List.append_nil,
    List.cons_append, List.nil_append]
  after_results

/-- The down-projection padded to 128 rows, narrowed. -/
theorem V_a (c : Dev nD) : (V m c main_v5 : FVec F S128x4096 .bf16)
    = truncf .bf16 (pad S128x4096 ![0, 0] ![112, 0] ![0, 0] (m ((c : Thread nD τ).loc main_arg2))
        (sitofp .f32 (constantI S_ 32 0#32)) pads_S16x4096_S128x4096_01120_000 h_S_) bitsLt_bf16_f32 := by
  dsimp only [V, V0]
  simp only [hostOps0, hostOps0_1, hostOps0_2, hostOps0_3, hostOps0_4, List.flatten_cons, List.flatten_nil, List.append_nil,
    List.cons_append, List.nil_append]
  after_results
  rfl

/-- The up-projection padded to 128 columns, narrowed. -/
theorem V_b (c : Dev nD) : (V m c main_v6 : FVec F S4096x128 .bf16)
    = truncf .bf16 (pad S4096x128 ![0, 0] ![0, 112] ![0, 0] (m ((c : Thread nD τ).loc main_arg3))
        (sitofp .f32 (constantI S_ 32 0#32)) pads_S4096x16_S4096x128_000_01120 h_S_) bitsLt_bf16_f32 := by
  dsimp only [V, V0]
  simp only [hostOps0, hostOps0_1, hostOps0_2, hostOps0_3, hostOps0_4, List.flatten_cons, List.flatten_nil, List.append_nil,
    List.cons_append, List.nil_append]
  after_results
  rfl

end AnyFloat

/-! ## The same, entry by entry over the extended reals -/

variable (m : (ℓ : Loc nD τ sig) → Buf (Elt Ideal) ℓ)

/-- Row 4096 b + s of the flattened input is row (b, s) of the input. -/
theorem x_read (c : Dev nD) (r : Fin 8192) (b : Fin 2) (s : Fin 4096) (hr : r.val = 4096 * b.val + s.val) (d : Fin 4096) :
    (V m c main_v3 : FVec Ideal S8192x4096 .bf16) (ix2 r d) = m ((c : Thread nD τ).loc main_arg0) (ix3 b s d) := by
  rw [V_x]
  show shapeCast S8192x4096 (m ((c : Thread nD τ).loc main_arg0)) shapeCasts_S2x4096x4096_S8192x4096 (ix2 r d) = _
  refine shapeCast_apply (s := S2x4096x4096) (t := S8192x4096) _ _ _ _ ?_
  show (S2x4096x4096.rowMajor (ix3 b s d)).val = (S8192x4096.rowMajor (ix2 r d)).val
  rw [Shape.rowMajor_val_three, Shape.rowMajor_val_two]
  show (b.val * 4096 + s.val) * 4096 + d.val = r.val * 4096 + d.val
  omega

/-- The base weight is read as it is. -/
theorem w_read (c : Dev nD) (j : S4096x4096.Idx) :
    (V m c main_v4 : FVec Ideal S4096x4096 .bf16) j = m ((c : Thread nD τ).loc main_arg1) j := by
  rw [V_w]
  rfl

/-- The first 16 rows of the padded down-projection are the down-projection's. -/
theorem a_read (c : Dev nD) (r : Fin 16) (d : Fin 4096) :
    (V m c main_v5 : FVec Ideal S128x4096 .bf16) (ix2 (rk r) d) = m ((c : Thread nD τ).loc main_arg2) (ix2 r d) := by
  rw [V_a]
  show pad S128x4096 ![0, 0] ![112, 0] ![0, 0] (m ((c : Thread nD τ).loc main_arg2))
    (sitofp (F := Ideal) .f32 (constantI S_ 32 0#32)) pads_S16x4096_S128x4096_01120_000 h_S_ (ix2 (rk r) d) = _
  refine pad_apply_of_inside _ _ _ _ _ _ _ (ix2 (rk r) d) (ix2 r d) fun a => ?_
  match a with
  | ⟨0, _⟩ => show r.val = 0 + r.val * (0 + 1); omega
  | ⟨1, _⟩ => show d.val = 0 + d.val * (0 + 1); omega

/-- The first 16 columns of the padded up-projection are the up-projection's. -/
theorem b_read (c : Dev nD) (n : Fin 4096) (r : Fin 16) :
    (V m c main_v6 : FVec Ideal S4096x128 .bf16) (ix2 n (rk r)) = m ((c : Thread nD τ).loc main_arg3) (ix2 n r) := by
  rw [V_b]
  show pad S4096x128 ![0, 0] ![0, 112] ![0, 0] (m ((c : Thread nD τ).loc main_arg3))
    (sitofp (F := Ideal) .f32 (constantI S_ 32 0#32)) pads_S4096x16_S4096x128_000_01120 h_S_ (ix2 n (rk r)) = _
  refine pad_apply_of_inside _ _ _ _ _ _ _ (ix2 n (rk r)) (ix2 n r) fun a => ?_
  match a with
  | ⟨0, _⟩ => show n.val = 0 + n.val * (0 + 1); omega
  | ⟨1, _⟩ => show r.val = 0 + r.val * (0 + 1); omega

/-- From column 16 on the padded up-projection is zero. -/
theorem b_zero (c : Dev nD) (n : Fin 4096) (r : Fin 128) (hr : 16 ≤ r.val) :
    (V m c main_v6 : FVec Ideal S4096x128 .bf16) (ix2 n r) = (0 : EReal) := by
  rw [V_b]
  show pad S4096x128 ![0, 0] ![0, 112] ![0, 0] (m ((c : Thread nD τ).loc main_arg3))
    (sitofp (F := Ideal) .f32 (constantI S_ 32 0#32)) pads_S4096x16_S4096x128_000_01120 h_S_ (ix2 n r) = _
  refine (pad_apply_of_not_inside _ _ _ _ _ _ _ (ix2 n r) (1 : Fin 2) ?_).trans ?_
  · intro h
    have h3 : (r.val - 0) / (0 + 1) < 16 := h.2.2
    omega
  · show (Scalar.sitofp .f32 0#32 : Ideal .f32) = 0
    exact sitofp_zero

end Cert.KernelIdeal.Arrays

end
-- ==== Proof.KernelRun.lean ====
/-
  The idealized kernel's run, read: its result is the layer of its four arguments.

  The region leaves, in its 8192 x 4096 result array, the blocked and padded evaluation at every entry.
  With the flattened input's row 4096 b + s being the input's row (b, s), the padded projections' first
  16 ranks being the projections' and the padded up-projection zero from rank 16 on, that evaluation is
  the layer's entry (b, s, o). The one host line after the region unflattens the rows: entry (b, s, o) of
  the program's result is entry (4096 b + s, o) of the region's.
-/
import proofs.«135183_j30803505447138_1_alg».proof.Proof.Gen.KernelIdeal.Frame
import proofs.«135183_j30803505447138_1_alg».proof.Proof.Closed
import proofs.«135183_j30803505447138_1_alg».proof.Proof.Arrays
import proofs.«135183_j30803505447138_1_alg».proof.Proof.LoraSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.KernelRun

open Cert.KernelIdeal Cert.KernelIdeal.Gen Cert.KernelIdeal.Closed Idealize.ShloMosaic.ValueIdx Cert.Hand.Lora

variable (m : (ℓ : Loc nD τ sig) → Buf (Elt Ideal) ℓ) (ρ : Dev nD → PrngReg)

/-- Entry (4096 b + s, o) of the region's result is the layer's entry (b, s, o). -/
theorem region_entry (c : Dev nD) (b : Fin 2) (s o : Fin 4096) (r : Fin 8192) (hr : r.val = 4096 * b.val + s.val) :
    G2 m c (ix2 r o) = entry (m ((c : Thread nD τ).loc main_arg0)) (m ((c : Thread nD τ).loc main_arg1)) (m ((c : Thread nD τ).loc main_arg2)) (m ((c : Thread nD τ).loc main_arg3)) b s o := by
  unfold G2
  exact blocked_eq_entry (X2 m c) (W2 m c) (A2 m c) (B2 m c) (m ((c : Thread nD τ).loc main_arg0)) (m ((c : Thread nD τ).loc main_arg1)) (m ((c : Thread nD τ).loc main_arg2)) (m ((c : Thread nD τ).loc main_arg3)) r o b s
    (fun d => Arrays.x_read m c r b s hr d) (fun d => Arrays.w_read m c (ix2 o d))
    (fun r' d => Arrays.a_read m c r' d) (fun r' => Arrays.b_read m c o r') (fun r' hr' => Arrays.b_zero m c o r' hr')

/-- The program's result, after the line that unflattens the rows, is the layer. -/
theorem result_eq (c : Dev nD) :
    Pipeline.afterTail₀ cfgs (dats m) 0 (V0 m) [hostOps1] c main_v8 = layer (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v8) = _
  after_results
  refine (congrArg (fun A : FVec Ideal S8192x4096 .f32 => shapeCast S2x4096x4096 A shapeCasts_S8192x4096_S2x4096x4096)
    ((Pipeline.withArrays_arr spec0 launch0.win.arr_inj c _ _ 4).trans (Closed.final m c))).trans ?_
  funext i
  have hb : (i 0).val < 2 := (i 0).isLt
  have hs : (i 1).val < 4096 := (i 1).isLt
  have ho : (i 2).val < 4096 := (i 2).isLt
  refine (shapeCast_apply (s := S8192x4096) (t := S2x4096x4096) (G2 m c) shapeCasts_S8192x4096_S2x4096x4096 i
    (ix2 (⟨4096 * (i 0).val + (i 1).val, by omega⟩ : Fin 8192) (⟨(i 2).val, ho⟩ : Fin 4096)) ?_).trans ?_
  · rw [Shape.rowMajor_val_two, Shape.rowMajor_val_three]
    show (4096 * (i 0).val + (i 1).val) * 4096 + (i 2).val = ((i 0).val * 4096 + (i 1).val) * 4096 + (i 2).val
    omega
  · exact region_entry m c ⟨(i 0).val, hb⟩ ⟨(i 1).val, hs⟩ ⟨(i 2).val, ho⟩ _ rfl

/-- Every weakly fair execution of the idealized kernel ends with its result at the layer of its arguments,
    and the arguments as they were. -/
theorem run : θ_run defs (onTc (τ := τ) (main (F := Ideal))) ⟨m, fun _ => 0, ρ⟩ fun r => ∀ c : Dev nD,
      r.2.mem ((c : Thread nD τ).loc main_v8) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  A linear layer with a low-rank correction: the kernel against its plain reference.

  The kernel flattens the batch, pads the two low-rank projections from 16 to 128 ranks with zeros and
  walks a grid of row blocks and feature blocks, keeping the base product and the down-projection as
  running totals over the four feature blocks and writing an output block after the last one; the
  reference is three contractions, a scaling by 2 and a sum. Over the extended reals both end at the same
  function of the four arguments, the layer (LoraSpec): the reference term for term (RefValue), the kernel
  because its totals after the last feature block are the sums over all features (Closed, by induction over
  the grid points from the frame's case equations, Totals and Pieces; Payloads reads the body's arithmetic),
  the padded ranks meet a zero of the padded up-projection, and the arrays the region finds are the
  arguments flattened and padded (Arrays, KernelRun). Only commutativity and associativity of addition and
  x * 0 = 0 are used, so the precondition that the inputs be finite is never opened. The three frames are
  the generated frames and the reference's generated run; the idealization rewrote nothing.
-/
import proofs.«135183_j30803505447138_1_alg».proof.Defs
import proofs.«135183_j30803505447138_1_alg».proof.Proof.Gen.Kernel
import proofs.«135183_j30803505447138_1_alg».proof.Proof.Gen.Kernel.Frame
import proofs.«135183_j30803505447138_1_alg».proof.Proof.Gen.KernelIdeal
import proofs.«135183_j30803505447138_1_alg».proof.Proof.Gen.KernelIdeal.Frame
import proofs.«135183_j30803505447138_1_alg».proof.Proof.Gen.ReferenceIdeal
import proofs.«135183_j30803505447138_1_alg».proof.Proof.Gen.ReferenceIdeal.Run
import proofs.«135183_j30803505447138_1_alg».proof.Proof.Gen.ReferenceIdeal.Read
import proofs.«135183_j30803505447138_1_alg».proof.Proof.Gen.Pre_finite_inputs
import proofs.«135183_j30803505447138_1_alg».proof.Proof.RefValue
import proofs.«135183_j30803505447138_1_alg».proof.Proof.KernelRun
import Idealize.ShloMosaic.Adequacy
import Idealize.ShloMosaic.Init

noncomputable section

namespace Cert.Proof

open Idealize.ShloMosaic Idealize.SL.Sem Cert.Hand.Lora

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the layer of the arguments, on which their memories agree. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
